-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S2x500000 : Shape := ⟨2, ![2, 500000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128 .f32) (main_arg10 : FVec F S128x1 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S128x1 .f32) (main_arg7 : FVec F S1 .f32) (main_arg8 : FVec F S256x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : FVec F S20000x128 .f32) (main_arg2 : IVec S2x500000 32) (main_arg3 : IVec S2x500000 32) (main_arg4 : FVec F S256x128 .f32) (main_arg5 : FVec F S128 .f32) (main_arg6 : FVec F S128x1 .f32) (main_arg7 : FVec F S1 .f32) (main_arg8 : FVec F S256x128 .f32) (main_arg9 : FVec F S128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S20000x128 : Shape := ⟨2, ![20000, 128]⟩
abbrev S2x500000 : Shape := ⟨2, ![2, 500000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S128x128 : Shape := ⟨2, ![128, 128]⟩
abbrev S1x128 : Shape := ⟨2, ![1, 128]⟩
abbrev S1x1 : Shape := ⟨2, ![1, 1]⟩
abbrev S5000x128 : Shape := ⟨2, ![5000, 128]⟩
abbrev S5000x1 : Shape := ⟨2, ![5000, 1]⟩
abbrev S1x500000x1 : Shape := ⟨3, ![1, 500000, 1]⟩
abbrev S2x500000x1 : Shape := ⟨3, ![2, 500000, 1]⟩

abbrev nBuf : Space → Nat
  | .hbm => 69
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x500000, .i32⟩
  | .hbm, ⟨3, _⟩ => ⟨S2x500000, .i32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S1x500000, .i32⟩
  | .hbm, ⟨24, _⟩ => ⟨S500000, .i32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S1x1, .f32⟩
  | .hbm, ⟨38, _⟩ => ⟨S500000x1, .f32⟩
  | .hbm, ⟨39, _⟩ => ⟨S1x500000, .i32⟩
  | .hbm, ⟨40, _⟩ => ⟨S500000, .i32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S1x500000, .i32⟩
  | .hbm, ⟨51, _⟩ => ⟨S500000, .i32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000x128, .f32⟩
  | .hbm, ⟨61, _⟩ => ⟨S128x128, .f32⟩
  | .hbm, ⟨62, _⟩ => ⟨S128x128, .f32⟩
  | .hbm, ⟨63, _⟩ => ⟨S1x128, .f32⟩
  | .hbm, ⟨64, _⟩ => ⟨S1x1, .f32⟩
  | .hbm, ⟨65, _⟩ => ⟨S500000x1, .f32⟩
  | .hbm, ⟨66, _⟩ => ⟨S1x500000x1, .f32⟩
  | .hbm, ⟨67, _⟩ => ⟨S1x500000x1, .f32⟩
  | .hbm, ⟨68, _⟩ => ⟨S2x500000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x1, .f32⟩
  | .local _ .vmem, ⟨8, _⟩ => ⟨S1x1, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x1, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S256x128_S128x128_0_0 : S256x128.Slices ![0, 0] S128x128
  slices_S256x128_S128x128_128_0 : S256x128.Slices ![128, 0] S128x128
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S500000x1_S1x500000x1_1_2 : S500000x1.BroadcastsInDim S1x500000x1 (![1, 2] : Fin 2 → Fin S1x500000x1.rank)
  concatenates_S1x500000x1_S1x500000x1_S2x500000x1_d0 : Shape.Concatenates [S1x500000x1, S1x500000x1] S2x500000x1 0
  gather_S100000x128_S500000x1_S500000x128_1_0_n_n_0_1_1128_wf : GatherDims.WF S100000x128 S500000x1 S500000x128 [1] [0] [] [0] [] 1 ![1, 128]
  gather_S20000x128_S500000x1_S500000x128_1_0_n_n_0_1_1128_wf : GatherDims.WF S20000x128 S500000x1 S500000x128 [1] [0] [] [0] [] 1 ![1, 128]
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S500000x1.size a
  hwx0_7 : ∀ i : grid0.Coords, EltTy.bits .f32 = 32 ∨ (Rect.block (s := S500000x1) S5000x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S500000x1.size a
  hwx1_7 : ∀ i : grid1.Coords, EltTy.bits .f32 = 32 ∨ (Rect.block (s := S500000x1) S5000x1.size (cc1_transform_7 i) (hinb1_7 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v8) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S5000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S2x500000 : Shape := ⟨2, ![2, 500000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S1x128 : Shape := ⟨2, ![1, 128]⟩
abbrev S1x1 : Shape := ⟨2, ![1, 1]⟩
abbrev S1x500000x1 : Shape := ⟨3, ![1, 500000, 1]⟩
abbrev S2x500000x1 : Shape := ⟨3, ![2, 500000, 1]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x500000, .i32⟩
  | .hbm, ⟨3, _⟩ => ⟨S2x500000, .i32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S1x500000, .i32⟩
  | .hbm, ⟨24, _⟩ => ⟨S500000, .i32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S500000x256, .f32⟩
  | .hbm, ⟨35, _⟩ => ⟨S500000x128, .f32⟩
  | .hbm, ⟨36, _⟩ => ⟨S1x128, .f32⟩
  | .hbm, ⟨37, _⟩ => ⟨S500000x128, .f32⟩
  | .hbm, ⟨38, _⟩ => ⟨S500000x128, .f32⟩
  | .hbm, ⟨39, _⟩ => ⟨S_, .f32⟩
  | .hbm, ⟨40, _⟩ => ⟨S500000x128, .f32⟩
  | .hbm, ⟨41, _⟩ => ⟨S500000x128, .f32⟩
  | .hbm, ⟨42, _⟩ => ⟨S500000x1, .f32⟩
  | .hbm, ⟨43, _⟩ => ⟨S1x1, .f32⟩
  | .hbm, ⟨44, _⟩ => ⟨S500000x1, .f32⟩
  | .hbm, ⟨45, _⟩ => ⟨S500000x1, .f32⟩
  | .hbm, ⟨46, _⟩ => ⟨S1x500000, .i32⟩
  | .hbm, ⟨47, _⟩ => ⟨S500000, .i32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x128, .f32⟩
  | .hbm, ⟨57, _⟩ => ⟨S1x500000, .i32⟩
  | .hbm, ⟨58, _⟩ => ⟨S500000, .i32⟩
  | .hbm, ⟨59, _⟩ => ⟨S_, .i32⟩
  | .hbm, ⟨60, _⟩ => ⟨S500000, .i32⟩
  | .hbm, ⟨61, _⟩ => ⟨S500000, .i1⟩
  | .hbm, ⟨62, _⟩ => ⟨S_, .i32⟩
  | .hbm, ⟨63, _⟩ => ⟨S500000, .i32⟩
  | .hbm, ⟨64, _⟩ => ⟨S500000, .i32⟩
  | .hbm, ⟨65, _⟩ => ⟨S500000, .i32⟩
  | .hbm, ⟨66, _⟩ => ⟨S500000x1, .i32⟩
  | .hbm, ⟨67, _⟩ => ⟨S500000x128, .f32⟩
  | .hbm, ⟨68, _⟩ => ⟨S500000x256, .f32⟩
  | .hbm, ⟨69, _⟩ => ⟨S500000x128, .f32⟩
  | .hbm, ⟨70, _⟩ => ⟨S1x128, .f32⟩
  | .hbm, ⟨71, _⟩ => ⟨S500000x128, .f32⟩
  | .hbm, ⟨72, _⟩ => ⟨S500000x128, .f32⟩
  | .hbm, ⟨73, _⟩ => ⟨S_, .f32⟩
  | .hbm, ⟨74, _⟩ => ⟨S500000x128, .f32⟩
  | .hbm, ⟨75, _⟩ => ⟨S500000x128, .f32⟩
  | .hbm, ⟨76, _⟩ => ⟨S500000x1, .f32⟩
  | .hbm, ⟨77, _⟩ => ⟨S1x1, .f32⟩
  | .hbm, ⟨78, _⟩ => ⟨S500000x1, .f32⟩
  | .hbm, ⟨79, _⟩ => ⟨S500000x1, .f32⟩
  | .hbm, ⟨80, _⟩ => ⟨S1x500000x1, .f32⟩
  | .hbm, ⟨81, _⟩ => ⟨S1x500000x1, .f32⟩
  | .hbm, ⟨82, _⟩ => ⟨S2x500000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x256_d1 : Shape.Concatenates [S500000x128, S500000x128] S500000x256 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S500000x1_S1x500000x1_1_2 : S500000x1.BroadcastsInDim S1x500000x1 (![1, 2] : Fin 2 → Fin S1x500000x1.rank)
  concatenates_S1x500000x1_S1x500000x1_S2x500000x1_d0 : Shape.Concatenates [S1x500000x1, S1x500000x1] S2x500000x1 0
  gather_S100000x128_S500000x1_S500000x128_1_0_n_n_0_1_1128_wf : GatherDims.WF S100000x128 S500000x1 S500000x128 [1] [0] [] [0] [] 1 ![1, 128]
  gather_S20000x128_S500000x1_S500000x128_1_0_n_n_0_1_1128_wf : GatherDims.WF S20000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Spec.lean ====
/-
  The edge decoder's score as one function of six arrays, index by index, and the one law the certificate needs.

  For an edge `e`, with `src` and `dst` the gathered rows of its two end nodes (each of width 128), `w1` of 256 rows
  (rows 0 … 127 meet `src`, rows 128 … 255 meet `dst`), the hidden unit `j` is

      h e j = (Σ k<128, src e k · w1 k j) + (Σ k<128, dst e k · w1 (128+k) j) + b1 j

  and the score is `(Σ j<128, max (h e j) 0 · w2 j 0) + b2 0`, all on the extended reals. The reference multiplies the
  row `src e ‖ dst e` of width 256 by `w1` in one contraction; a sum over 256 positions is the sum over the first
  128 plus the sum over the last 128 (`sum_halves`), which is all that relates the two.
-/
import Idealize.ShloMosaic.PureOps.Ideal
import Idealize.ShloMosaic.PureOps.Ideal.Laws
import Idealize.ShloMosaic.Lib.ValueIdx

noncomputable section

open scoped BigOperators

namespace EdgeDecoder

open Idealize.ShloMosaic Idealize.ShloMosaic.ValueIdx

/-- Position `k` of the first half of a row of width 256. -/
abbrev lo (k : Fin 128) : Fin 256 := ⟨k.val, by have := k.isLt; omega⟩
/-- Position `128 + k` of a row of width 256: position `k` of its second half. -/
abbrev hi (k : Fin 128) : Fin 256 := ⟨128 + k.val, by have := k.isLt; omega⟩

/-- A sum over the 256 positions of a row is the sum over its first half plus the sum over its second half (in any
    commutative additive monoid: the extended reals' addition is one, infinities included). -/
theorem sum_halves {M : Type} [AddCommMonoid M] (f : Fin 256 → M) :
    ∑ k : Fin 256, f k = (∑ k : Fin 128, f (lo k)) + ∑ k : Fin 128, f (hi k) :=
  Fin.sum_univ_add (a := 128) (b := 128) f

/-- The f32 word of `0.0`, the floor of the rectifier, as an ideal value. -/
abbrev zeroLit : EReal := Ideal.ofBits .f32 0x00000000#32

/-- Hidden unit `j` of edge `e` before the rectifier. -/
def hidden (src dst : (⟨2, ![500000, 128]⟩ : Shape).Idx → EReal) (w1 : (⟨2, ![256, 128]⟩ : Shape).Idx → EReal)
    (b1 : (⟨1, ![128]⟩ : Shape).Idx → EReal) (e : Fin 500000) (j : Fin 128) : EReal :=
  (∑ k : Fin 128, src (ix2 e k) * w1 (ix2 (lo k) j)) + (∑ k : Fin 128, dst (ix2 e k) * w1 (ix2 (hi k) j)) + b1 (ix1 j)

/-- The decoder's score of every edge: the rectified hidden units against `w2`'s one column, plus the bias. -/
def score (src dst : (⟨2, ![500000, 128]⟩ : Shape).Idx → EReal) (w1 : (⟨2, ![256, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨2, ![500000, 1]⟩ : Shape).Idx → EReal := fun i =>
  (∑ j : Fin 128, max (hidden src dst w1 b1 (i 0) j) zeroLit * w2 (ix2 j (0 : Fin 1))) + b2 (ix1 (0 : Fin 1))

/-- The same score written over the seven arrays a kernel call is handed: the two gathered arrays, the two 128-row halves
    of the first layer's weights as arrays of their own, the two biases as one-row arrays. -/
def tileScore (a0 a1 : (⟨2, ![500000, 128]⟩ : Shape).Idx → EReal) (a2 a3 : (⟨2, ![128, 128]⟩ : Shape).Idx → EReal)
    (a4 : (⟨2, ![1, 128]⟩ : Shape).Idx → EReal) (a5 : (⟨2, ![128, 1]⟩ : Shape).Idx → EReal)
    (a6 : (⟨2, ![1, 1]⟩ : Shape).Idx → EReal) : (⟨2, ![500000, 1]⟩ : Shape).Idx → EReal := fun i =>
  (∑ j : Fin 128, max ((∑ k : Fin 128, a0 (ix2 (i 0) k) * a2 (ix2 k j)) + (∑ k : Fin 128, a1 (ix2 (i 0) k) * a3 (ix2 k j))
      + a4 (ix2 (0 : Fin 1) j)) zeroLit * a5 (ix2 j (0 : Fin 1))) + a6 (ix2 (0 : Fin 1) (0 : Fin 1))

/-- When the two weight arrays are the halves of `w1` and the one-row arrays hold `b1` and `b2`, the tile form is the score. -/
theorem tileScore_eq_score (a0 a1 : (⟨2, ![500000, 128]⟩ : Shape).Idx → EReal) (a2 a3 : (⟨2, ![128, 128]⟩ : Shape).Idx → EReal)
    (a4 : (⟨2, ![1, 128]⟩ : Shape).Idx → EReal) (a5 : (⟨2, ![128, 1]⟩ : Shape).Idx → EReal) (a6 : (⟨2, ![1, 1]⟩ : Shape).Idx → EReal)
    (w1 : (⟨2, ![256, 128]⟩ : Shape).Idx → EReal) (b1 : (⟨1, ![128]⟩ : Shape).Idx → EReal) (b2 : (⟨1, ![1]⟩ : Shape).Idx → EReal)
    (h2 : ∀ (k j : Fin 128), a2 (ix2 k j) = w1 (ix2 (lo k) j)) (h3 : ∀ (k j : Fin 128), a3 (ix2 k j) = w1 (ix2 (hi k) j))
    (h4 : ∀ j : Fin 128, a4 (ix2 (0 : Fin 1) j) = b1 (ix1 j)) (h6 : a6 (ix2 (0 : Fin 1) (0 : Fin 1)) = b2 (ix1 (0 : Fin 1))) :
    tileScore a0 a1 a2 a3 a4 a5 a6 = score a0 a1 w1 b1 a5 b2 := by
  funext i
  unfold tileScore score hidden
  simp only [h2, h3, h4, h6]

end EdgeDecoder

end
-- ==== Proof.RefScore.lean ====
/-
  The reference's composed term for one relation is `EdgeDecoder.score` of the two gathered arrays and the relation's
  weights — for ANY two arrays `a`, `b` in the gathered arrays' place, so both relations are instances. The reference joins
  the two gathered rows into one row of width 256 and contracts it against all 256 rows of `w1`; at an index that is a
  sum over 256 positions, which splits into the first 128 — where the joined row is `a`'s — and the last 128 — where it
  is `b`'s (`EdgeDecoder.sum_halves`). Everything else is the same expression on both sides, read entry by entry.
-/
import proofs.«166116_j5488968204770_1_alg».proof.Proof.Gen.ReferenceIdeal.Read
import proofs.«166116_j5488968204770_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefScore

open Cert.ReferenceIdeal Cert.ReferenceIdeal.Gen Cert.ReferenceIdeal.Read Idealize.ShloMosaic Idealize.ShloMosaic.ValueIdx
open EdgeDecoder

/-- The joined row at a position of its first half is the first array's row there. -/
theorem joined_lo (a b : FVec Ideal S500000x128 .f32) (e : Fin 500000) (k : Fin 128) :
    concatenate S500000x256 1 [⟨S500000x128, a⟩, ⟨S500000x128, b⟩] concatenates_S500000x128_S500000x128_S500000x256_d1 (ix2 e (lo k))
      = a (ix2 e k) :=
  concatenate_pair_apply_left (1 : Fin 2) a b concatenates_S500000x128_S500000x128_S500000x256_d1 (ix2 e (lo k)) rfl (ix2 e k)
    (fun bx => by match bx with | ⟨0, _⟩ => rfl | ⟨1, _⟩ => rfl)

/-- The joined row at position `128 + k` is the second array's row at `k`. -/
theorem joined_hi (a b : FVec Ideal S500000x128 .f32) (e : Fin 500000) (k : Fin 128) :
    concatenate S500000x256 1 [⟨S500000x128, a⟩, ⟨S500000x128, b⟩] concatenates_S500000x128_S500000x128_S500000x256_d1 (ix2 e (hi k))
      = b (ix2 e k) :=
  concatenate_pair_apply_right (1 : Fin 2) a b concatenates_S500000x128_S500000x128_S500000x256_d1 (ix2 e (hi k)) rfl rfl (ix2 e k)
    (fun bx hbx => by match bx with | ⟨0, _⟩ => rfl | ⟨1, _⟩ => exact absurd (Fin.ext rfl) hbx)
    (by show k.val + 128 = 128 + k.val; omega)

/-- The first layer's product at (e, j): row `e` of the left against column `j` of the right, over the 256 joined positions. -/
theorem layer1_apply (l : FVec Ideal S500000x256 .f32) (r : FVec Ideal S256x128 .f32) (e : Fin 500000) (j : Fin 128) :
    Host.dotGeneral dot_S500000x256_S256x128_S500000x128_1_0_0_1_n_n none l r (ix2 e j) = ∑ k : Fin 256, l (ix2 e k) * r (ix2 k j) := by
  simp only [Host.dotGeneral]
  rw [Ideal.dotGeneral_apply, ← Equiv.sum_comp (contrEquiv1 dot_S500000x256_S256x128_S500000x128_1_0_0_1_n_n 256 rfl rfl).symm]
  refine Finset.sum_congr rfl fun k _ => ?_
  have hk := contrEquiv1_symm_val dot_S500000x256_S256x128_S500000x128_1_0_0_1_n_n 256 rfl rfl k
  have el : dot_S500000x256_S256x128_S500000x128_1_0_0_1_n_n.lhsIdx (ix2 e j) ((contrEquiv1 dot_S500000x256_S256x128_S500000x128_1_0_0_1_n_n 256 rfl rfl).symm k) = ix2 e k := funext fun a => Fin.ext (by
    match a with
    | ⟨0, _⟩ => exact lhs_main_v19_0 _ _
    | ⟨1, _⟩ => exact (lhs_main_v19_1 _ _).trans hk)
  have er : dot_S500000x256_S256x128_S500000x128_1_0_0_1_n_n.rhsIdx (ix2 e j) ((contrEquiv1 dot_S500000x256_S256x128_S500000x128_1_0_0_1_n_n 256 rfl rfl).symm k) = ix2 k j := funext fun a => Fin.ext (by
    match a with
    | ⟨0, _⟩ => exact (rhs_main_v19_0 _ _).trans hk
    | ⟨1, _⟩ => exact rhs_main_v19_1 _ _)
  rw [el, er]

/-- The second layer's product at (e, q): row `e` of the left against the right's column. -/
theorem layer2_apply (l : FVec Ideal S500000x128 .f32) (r : FVec Ideal S128x1 .f32) (e : Fin 500000) (q : Fin 1) :
    Host.dotGeneral dot_S500000x128_S128x1_S500000x1_1_0_0_1_n_n none l r (ix2 e q) = ∑ k : Fin 128, l (ix2 e k) * r (ix2 k q) := by
  simp only [Host.dotGeneral]
  rw [Ideal.dotGeneral_apply, ← Equiv.sum_comp (contrEquiv1 dot_S500000x128_S128x1_S500000x1_1_0_0_1_n_n 128 rfl rfl).symm]
  refine Finset.sum_congr rfl fun k _ => ?_
  have hk := contrEquiv1_symm_val dot_S500000x128_S128x1_S500000x1_1_0_0_1_n_n 128 rfl rfl k
  have el : dot_S500000x128_S128x1_S500000x1_1_0_0_1_n_n.lhsIdx (ix2 e q) ((contrEquiv1 dot_S500000x128_S128x1_S500000x1_1_0_0_1_n_n 128 rfl rfl).symm k) = ix2 e k := funext fun a => Fin.ext (by
    match a with
    | ⟨0, _⟩ => exact lhs_main_v25_0 _ _
    | ⟨1, _⟩ => exact (lhs_main_v25_1 _ _).trans hk)
  have er : dot_S500000x128_S128x1_S500000x1_1_0_0_1_n_n.rhsIdx (ix2 e q) ((contrEquiv1 dot_S500000x128_S128x1_S500000x1_1_0_0_1_n_n 128 rfl rfl).symm k) = ix2 k q := funext fun a => Fin.ext (by
    match a with
    | ⟨0, _⟩ => exact (rhs_main_v25_0 _ _).trans hk
    | ⟨1, _⟩ => exact rhs_main_v25_1 _ _)
  rw [el, er]

/-- The first layer's bias, laid along every row. -/
theorem bias1_apply (b1 : FVec Ideal S128 .f32) (e : Fin 500000) (j : Fin 128) :
    broadcastInDim S500000x128 ![0, 1] bcast_S1x128_S500000x128_0_1 (broadcastInDim S1x128 ![1] bcast_S128_S1x128_1 b1) (ix2 e j) = b1 (ix1 j) := by
  rw [broadcastInDim_apply _ bcast_S1x128_S500000x128_0_1 _ (ix2 e j) (ix2 (0 : Fin 1) j) (fun a => match a with
    | ⟨0, _⟩ => by show 0 = if (1 : Nat) = 1 then 0 else e.val; rw [if_pos rfl]
    | ⟨1, _⟩ => by show j.val = if (128 : Nat) = 1 then 0 else j.val; rw [if_neg (by decide)])]
  exact broadcastInDim_apply _ bcast_S128_S1x128_1 b1 (ix2 (0 : Fin 1) j) (ix1 j) (fun a => match a with
    | ⟨0, _⟩ => by show j.val = if (128 : Nat) = 1 then 0 else j.val; rw [if_neg (by decide)])

/-- The second layer's bias, laid along every row. -/
theorem bias2_apply (b2 : FVec Ideal S1 .f32) (e : Fin 500000) :
    broadcastInDim S500000x1 ![0, 1] bcast_S1x1_S500000x1_0_1 (broadcastInDim S1x1 ![1] bcast_S1_S1x1_1 b2) (ix2 e (0 : Fin 1)) = b2 (ix1 (0 : Fin 1)) := by
  rw [broadcastInDim_apply _ bcast_S1x1_S500000x1_0_1 _ (ix2 e (0 : Fin 1)) (ix2 (0 : Fin 1) (0 : Fin 1)) (fun a => match a with
    | ⟨0, _⟩ => by show 0 = if (1 : Nat) = 1 then 0 else e.val; rw [if_pos rfl]
    | ⟨1, _⟩ => by show 0 = if (1 : Nat) = 1 then 0 else 0; rw [if_pos rfl])]
  exact broadcastInDim_apply _ bcast_S1_S1x1_1 b2 (ix2 (0 : Fin 1) (0 : Fin 1)) (ix1 (0 : Fin 1)) (fun a => match a with
    | ⟨0, _⟩ => by show 0 = if (1 : Nat) = 1 then 0 else 0; rw [if_pos rfl])

/-- The rectifier's floor, laid over the whole array, is the zero word everywhere. -/
theorem floor_apply (e : Fin 500000) (j : Fin 128) :
    broadcastInDim S500000x128 ![] bcast_S_S500000x128 (constant (F := Ideal) S_ .f32 0x00000000#32) (ix2 e j) = zeroLit :=
  broadcastInDim_apply _ bcast_S_S500000x128 _ (ix2 e j) ix0 (fun a => a.elim0)

/-- ONE RELATION'S REFERENCE TERM IS THE SCORE, whatever arrays stand where the gathered rows do. -/
theorem refTerm_eq (a b : FVec Ideal S500000x128 .f32) (w1 : FVec Ideal S256x128 .f32) (b1 : FVec Ideal S128 .f32)
    (w2 : FVec Ideal S128x1 .f32) (b2 : FVec Ideal S1 .f32) :
    addf (Host.dotGeneral dot_S500000x128_S128x1_S500000x1_1_0_0_1_n_n none
        (maximumf
          (addf (Host.dotGeneral dot_S500000x256_S256x128_S500000x128_1_0_0_1_n_n none
              (concatenate S500000x256 1 [⟨S500000x128, a⟩, ⟨S500000x128, b⟩] concatenates_S500000x128_S500000x128_S500000x256_d1) w1)
            (broadcastInDim S500000x128 ![0, 1] bcast_S1x128_S500000x128_0_1 (broadcastInDim S1x128 ![1] bcast_S128_S1x128_1 b1)))
          (broadcastInDim S500000x128 ![] bcast_S_S500000x128 (constant S_ .f32 0x00000000#32))) w2)
      (broadcastInDim S500000x1 ![0, 1] bcast_S1x1_S500000x1_0_1 (broadcastInDim S1x1 ![1] bcast_S1_S1x1_1 b2))
    = score a b w1 b1 w2 b2 := by
  funext i
  obtain ⟨e, q, rfl⟩ : ∃ (e : Fin 500000) (q : Fin 1), i = ix2 e q := ⟨i 0, i 1, eq_ix2 i⟩
  obtain rfl : q = 0 := Subsingleton.elim _ _
  rw [addf_apply, layer2_apply, bias2_apply]
  unfold EdgeDecoder.score EdgeDecoder.hidden
  refine congrArg (· + _) (Finset.sum_congr rfl fun j _ => ?_)
  rw [maximumf_apply, addf_apply, layer1_apply, bias1_apply, floor_apply, sum_halves]
  simp only [joined_lo, joined_hi]

/-- The gene–disease relation's scores. -/
theorem ref_gd (x0 : (⟨S100000x128, .f32⟩ : BufTy).Contents (Elt Ideal)) (x1 : (⟨S20000x128, .f32⟩ : BufTy).Contents (Elt Ideal))
    (x2 : (⟨S2x500000, .i32⟩ : BufTy).Contents (Elt Ideal)) (x4 : (⟨S256x128, .f32⟩ : BufTy).Contents (Elt Ideal))
    (x5 : (⟨S128, .f32⟩ : BufTy).Contents (Elt Ideal)) (x6 : (⟨S128x1, .f32⟩ : BufTy).Contents (Elt Ideal))
    (x7 : (⟨S1, .f32⟩ : BufTy).Contents (Elt Ideal)) :
    val_main_v28 (F := Ideal) x0 x1 x2 x4 x5 x6 x7
      = score (val_main_v8 (F := Ideal) x0 x2) (val_main_v17 (F := Ideal) x1 x2) x4 x5 x6 x7 :=
  refTerm_eq (val_main_v8 (F := Ideal) x0 x2) (val_main_v17 (F := Ideal) x1 x2) x4 x5 x6 x7

/-- The gene–gene relation's scores. -/
theorem ref_gg (x0 : (⟨S100000x128, .f32⟩ : BufTy).Contents (Elt Ideal)) (x3 : (⟨S2x500000, .i32⟩ : BufTy).Contents (Elt Ideal))
    (x8 : (⟨S256x128, .f32⟩ : BufTy).Contents (Elt Ideal)) (x9 : (⟨S128, .f32⟩ : BufTy).Contents (Elt Ideal))
    (x10 : (⟨S128x1, .f32⟩ : BufTy).Contents (Elt Ideal)) (x11 : (⟨S1, .f32⟩ : BufTy).Contents (Elt Ideal)) :
    val_main_v57 (F := Ideal) x0 x3 x8 x9 x10 x11
      = score (val_main_v37 (F := Ideal) x0 x3) (val_main_v46 (F := Ideal) x0 x3) x8 x9 x10 x11 :=
  refTerm_eq (val_main_v37 (F := Ideal) x0 x3) (val_main_v46 (F := Ideal) x0 x3) x8 x9 x10 x11

/-- The whole result as one function of the twelve arguments: the two relations' scores, each as a [1, 500000, 1] slab, stacked. -/
def decoded (x0 : (⟨S100000x128, .f32⟩ : BufTy).Contents (Elt Ideal)) (x1 : (⟨S20000x128, .f32⟩ : BufTy).Contents (Elt Ideal)) (x2 x3 : (⟨S2x500000, .i32⟩ : BufTy).Contents (Elt Ideal)) (x4 : (⟨S256x128, .f32⟩ : BufTy).Contents (Elt Ideal))
    (x5 : (⟨S128, .f32⟩ : BufTy).Contents (Elt Ideal)) (x6 : (⟨S128x1, .f32⟩ : BufTy).Contents (Elt Ideal)) (x7 : (⟨S1, .f32⟩ : BufTy).Contents (Elt Ideal)) (x8 : (⟨S256x128, .f32⟩ : BufTy).Contents (Elt Ideal))
    (x9 : (⟨S128, .f32⟩ : BufTy).Contents (Elt Ideal)) (x10 : (⟨S128x1, .f32⟩ : BufTy).Contents (Elt Ideal)) (x11 : (⟨S1, .f32⟩ : BufTy).Contents (Elt Ideal)) :
    (⟨S2x500000x1, .f32⟩ : BufTy).Contents (Elt Ideal) :=
  concatenate S2x500000x1 0
    [⟨S1x500000x1, broadcastInDim S1x500000x1 ![1, 2] bcast_S500000x1_S1x500000x1_1_2
        (score (val_main_v8 (F := Ideal) x0 x2) (val_main_v17 (F := Ideal) x1 x2) x4 x5 x6 x7)⟩,
     ⟨S1x500000x1, broadcastInDim S1x500000x1 ![1, 2] bcast_S500000x1_S1x500000x1_1_2
        (score (val_main_v37 (F := Ideal) x0 x3) (val_main_v46 (F := Ideal) x0 x3) x8 x9 x10 x11)⟩]
    concatenates_S1x500000x1_S1x500000x1_S2x500000x1_d0

/-- The reference's result term is that function of its arguments. -/
theorem ref_decoded (x0 : (⟨S100000x128, .f32⟩ : BufTy).Contents (Elt Ideal)) (x1 : (⟨S20000x128, .f32⟩ : BufTy).Contents (Elt Ideal)) (x2 x3 : (⟨S2x500000, .i32⟩ : BufTy).Contents (Elt Ideal)) (x4 : (⟨S256x128, .f32⟩ : BufTy).Contents (Elt Ideal))
    (x5 : (⟨S128, .f32⟩ : BufTy).Contents (Elt Ideal)) (x6 : (⟨S128x1, .f32⟩ : BufTy).Contents (Elt Ideal)) (x7 : (⟨S1, .f32⟩ : BufTy).Contents (Elt Ideal)) (x8 : (⟨S256x128, .f32⟩ : BufTy).Contents (Elt Ideal))
    (x9 : (⟨S128, .f32⟩ : BufTy).Contents (Elt Ideal)) (x10 : (⟨S128x1, .f32⟩ : BufTy).Contents (Elt Ideal)) (x11 : (⟨S1, .f32⟩ : BufTy).Contents (Elt Ideal)) :
    val_main_v60 (F := Ideal) x0 x1 x2 x3 x4 x5 x6 x7 x8 x9 x10 x11 = decoded x0 x1 x2 x3 x4 x5 x6 x7 x8 x9 x10 x11 := by
  unfold val_main_v60 val_main_v58 val_main_v59 decoded
  rw [ref_gd, ref_gg]

end Cert.ReferenceIdeal.RefScore

end
-- ==== Proof.Payload.lean ====
/-
  The kernel body's stored value at one entry. A grid point holds 5000 edges: `x0`, `x1` are its 5000 rows of the two
  gathered node arrays, `x2`, `x3` the two 128-row halves of the first layer's weights, `x4` its bias as one row, `x5`
  the second layer's one column, `x6` its bias. Read at the ideal values — where narrowing to bf16 changes nothing and a
  matrix product into a zero accumulator is the plain sum over the contracted axis — the value stored at row `p` is

      (Σ j<128, max ((Σ k<128, x0 p k · x2 k j) + (Σ k<128, x1 p k · x3 k j) + x4 0 j) 0 · x5 j 0) + x6 0 0.
-/
import proofs.«166116_j5488968204770_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two matrix products' operand indices, axis by axis -/

theorem lhsH_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsH_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsH_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsH_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhsO_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhsO_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhsO_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhsO_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-! ## The two matrix products at an entry -/

/-- A [5000,128] × [128,128] product into the zero accumulator, at (p, q): row `p` of the left against column `q` of the right. -/
theorem hiddenDot_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsH_0 _ _
    | ⟨1, _⟩ => exact (lhsH_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsH_0 _ _).trans hk
    | ⟨1, _⟩ => exact rhsH_1 _ _)
  rw [el, er]

/-- A [5000,128] × [128,1] product into the zero accumulator, at (p, q): row `p` of the left against the right's column. -/
theorem outDot_apply {φ₁ φ₂ : FTy} (l : FVec Ideal S5000x128 φ₁) (r : FVec Ideal S128x1 φ₂) (p : Fin 5000) (q : Fin 1) :
    matmul dot_S5000x128_S128x1_S5000x1_1_0_0_1_n_n none l r (constant S5000x1 .f32 0x00000000#32) (ix2 p q)
      = ∑ k : Fin 128, l (ix2 p k) * r (ix2 k q) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k := funext fun a => Fin.ext (by
    match a with
    | ⟨0, _⟩ => exact lhsO_0 _ _
    | ⟨1, _⟩ => exact (lhsO_1 _ _).trans hk)
  have er : dot_S5000x128_S128x1_S5000x1_1_0_0_1_n_n.rhsIdx (ix2 p q) ((contrEquiv1 dot_S5000x128_S128x1_S5000x1_1_0_0_1_n_n 128 rfl rfl).symm k) = ix2 k q := funext fun a => Fin.ext (by
    match a with
    | ⟨0, _⟩ => exact (rhsO_0 _ _).trans hk
    | ⟨1, _⟩ => exact rhsO_1 _ _)
  rw [el, er]

/-! ## The stored value -/

/-- The value the body stores, at row `p` of its [5000,1] block. -/
theorem pay_apply (x0 x1 : FVec Ideal S5000x128 .f32) (x2 x3 : FVec Ideal S128x128 .f32) (x4 : FVec Ideal S1x128 .f32)
    (x5 : FVec Ideal S128x1 .f32) (x6 : FVec Ideal S1x1 .f32) (p : Fin 5000) :
    k0_pay1 (F := Ideal) x0 x1 x2 x3 x4 x5 x6 (ix2 p (0 : Fin 1))
      = (∑ j : Fin 128, max ((∑ k : Fin 128, x0 (ix2 p k) * x2 (ix2 k j)) + (∑ k : Fin 128, x1 (ix2 p k) * x3 (ix2 k j))
            + x4 (ix2 (0 : Fin 1) j)) (Ideal.ofBits .f32 0x00000000#32) * x5 (ix2 j (0 : Fin 1)))
          + x6 (ix2 (0 : Fin 1) (0 : Fin 1)) := by
  unfold k0_pay1
  simp only [shapeCast_self]
  rw [addf_apply, outDot_apply, broadcastTo_1b_ab_apply]
  refine congrArg (· + _) (Finset.sum_congr rfl fun j _ => ?_)
  rw [truncf_apply, truncf_apply, maximumf_apply, addf_apply, addf_apply, hiddenDot_apply, hiddenDot_apply,
    broadcastTo_1b_ab_apply, broadcast_apply]
  rfl

/-- The second pallas_call runs the same kernel function: its stored value is the same term. -/
theorem pay1_eq (x0 x1 : FVec Ideal S5000x128 .f32) (x2 x3 : FVec Ideal S128x128 .f32) (x4 : FVec Ideal S1x128 .f32)
    (x5 : FVec Ideal S128x1 .f32) (x6 : FVec Ideal S1x1 .f32) :
    k1_pay1 (F := Ideal) x0 x1 x2 x3 x4 x5 x6 = k0_pay1 (F := Ideal) x0 x1 x2 x3 x4 x5 x6 := rfl

/-- So the second pallas_call's stored value at row `p` is the same formula. -/
theorem pay1_apply (x0 x1 : FVec Ideal S5000x128 .f32) (x2 x3 : FVec Ideal S128x128 .f32) (x4 : FVec Ideal S1x128 .f32)
    (x5 : FVec Ideal S128x1 .f32) (x6 : FVec Ideal S1x1 .f32) (p : Fin 5000) :
    k1_pay1 (F := Ideal) x0 x1 x2 x3 x4 x5 x6 (ix2 p (0 : Fin 1))
      = (∑ j : Fin 128, max ((∑ k : Fin 128, x0 (ix2 p k) * x2 (ix2 k j)) + (∑ k : Fin 128, x1 (ix2 p k) * x3 (ix2 k j))
            + x4 (ix2 (0 : Fin 1) j)) (Ideal.ofBits .f32 0x00000000#32) * x5 (ix2 j (0 : Fin 1)))
          + x6 (ix2 (0 : Fin 1) (0 : Fin 1)) :=
  (congrFun (pay1_eq x0 x1 x2 x3 x4 x5 x6) _).trans (pay_apply x0 x1 x2 x3 x4 x5 x6 p)

end Cert.KernelIdeal.Body

end
-- ==== Proof.Region0.lean ====
/-
  The first pallas_call's result array, read off its generated proof data at ANY contents `V` of the buffers at the call's
  entry. The grid has 100 points; point `t` is handed rows `5000 t … 5000 t + 4999` of the two gathered arrays and the five
  small arrays whole, and writes rows `5000 t … 5000 t + 4999` of the result. A row's stored value depends on its own row of
  the gathered arrays only, so the 100 write-backs are the blocks of ONE function of the entry arrays
  (`EdgeDecoder.tileScore`), and they cover the result array.
-/
import proofs.«166116_j5488968204770_1_alg».proof.Proof.Gen.KernelIdeal.Frame
import proofs.«166116_j5488968204770_1_alg».proof.Proof.Spec
import proofs.«166116_j5488968204770_1_alg».proof.Proof.Payload
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)
open EdgeDecoder (tileScore)

variable (V : (c : Dev nD) → (b : Ref sig .tc) → Buf (Elt Ideal) ((c : Thread nD τ).loc b))

/-- Every access of the body starts at the origin of its buffer. -/
theorem hz : (![0, 0] : Fin 2 → Nat) = fun _ => 0 := funext fun a => by fin_cases a <;> rfl

/-- Where each window's block sits at grid point `t`: the two gathered arrays and the result move down 5000 rows per point;
    the weights and biases are whole arrays, the same block at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Point `t`'s block of the first gathered array is its rows `5000 t … 5000 t + 4999`. -/
theorem src_read (c : Dev nD) (t : Fin cfg0.N) (p : Fin 5000) (k : Fin 128) (e : Fin 500000) (he : e.val = t.val * 5000 + p.val) :
    (iblk0 V c 0 t : S5000x128.Idx → EReal) (ix2 p k) = (V c main_v8 : S500000x128.Idx → EReal) (ix2 e k) := by
  obtain ⟨h00, h01, -⟩ := idx_facts t
  unfold iblk0
  rw [View.read_apply]
  show (V c main_v8 : S500000x128.Idx → EReal) _ = _
  refine congrArg _ (funext fun a => Fin.ext ?_)
  match a with
  | ⟨0, _⟩ => show win0_0.index t (0 : Fin 2) * 5000 + 1 * p.val = e.val; rw [h00, he]; omega
  | ⟨1, _⟩ => show win0_0.index t (1 : Fin 2) * 128 + 1 * k.val = k.val; rw [h01]; omega

/-- Point `t`'s block of the second gathered array is its rows `5000 t … 5000 t + 4999`. -/
theorem dst_read (c : Dev nD) (t : Fin cfg0.N) (p : Fin 5000) (k : Fin 128) (e : Fin 500000) (he : e.val = t.val * 5000 + p.val) :
    (iblk0 V c 1 t : S5000x128.Idx → EReal) (ix2 p k) = (V c main_v17 : S500000x128.Idx → EReal) (ix2 e k) := by
  obtain ⟨-, -, h10, h11, -⟩ := idx_facts t
  unfold iblk0
  rw [View.read_apply]
  show (V c main_v17 : S500000x128.Idx → EReal) _ = _
  refine congrArg _ (funext fun a => Fin.ext ?_)
  match a with
  | ⟨0, _⟩ => show win0_1.index t (0 : Fin 2) * 5000 + 1 * p.val = e.val; rw [h10, he]; omega
  | ⟨1, _⟩ => show win0_1.index t (1 : Fin 2) * 128 + 1 * k.val = k.val; rw [h11]; omega

/-- The first half of the first layer's weights is handed over whole. -/
theorem w1lo_read (c : Dev nD) (t : Fin cfg0.N) (y : S128x128.Idx) :
    (iblk0 V c 2 t : S128x128.Idx → EReal) y = (V c main_v18 : S128x128.Idx → EReal) y := by
  obtain ⟨-, -, -, -, h0, h1, -⟩ := idx_facts t
  unfold iblk0
  rw [View.read_apply]
  show (V c main_v18 : S128x128.Idx → EReal) _ = _
  refine congrArg _ (funext fun a => Fin.ext ?_)
  match a with
  | ⟨0, _⟩ => show win0_2.index t (0 : Fin 2) * 128 + 1 * (y 0).val = (y 0).val; rw [h0]; omega
  | ⟨1, _⟩ => show win0_2.index t (1 : Fin 2) * 128 + 1 * (y 1).val = (y 1).val; rw [h1]; omega

/-- The second half of the first layer's weights is handed over whole. -/
theorem w1hi_read (c : Dev nD) (t : Fin cfg0.N) (y : S128x128.Idx) :
    (iblk0 V c 3 t : S128x128.Idx → EReal) y = (V c main_v19 : S128x128.Idx → EReal) y := by
  obtain ⟨-, -, -, -, -, -, h0, h1, -⟩ := idx_facts t
  unfold iblk0
  rw [View.read_apply]
  show (V c main_v19 : S128x128.Idx → EReal) _ = _
  refine congrArg _ (funext fun a => Fin.ext ?_)
  match a with
  | ⟨0, _⟩ => show win0_3.index t (0 : Fin 2) * 128 + 1 * (y 0).val = (y 0).val; rw [h0]; omega
  | ⟨1, _⟩ => show win0_3.index t (1 : Fin 2) * 128 + 1 * (y 1).val = (y 1).val; rw [h1]; omega

/-- The first layer's bias row is handed over whole. -/
theorem b1_read (c : Dev nD) (t : Fin cfg0.N) (y : S1x128.Idx) :
    (iblk0 V c 4 t : S1x128.Idx → EReal) y = (V c main_v20 : S1x128.Idx → EReal) y := by
  obtain ⟨-, -, -, -, -, -, -, -, h0, h1, -⟩ := idx_facts t
  unfold iblk0
  rw [View.read_apply]
  show (V c main_v20 : S1x128.Idx → EReal) _ = _
  refine congrArg _ (funext fun a => Fin.ext ?_)
  match a with
  | ⟨0, _⟩ => show win0_4.index t (0 : Fin 2) * 1 + 1 * (y 0).val = (y 0).val; rw [h0]; omega
  | ⟨1, _⟩ => show win0_4.index t (1 : Fin 2) * 128 + 1 * (y 1).val = (y 1).val; rw [h1]; omega

/-- The second layer's column is handed over whole. -/
theorem w2_read (c : Dev nD) (t : Fin cfg0.N) (y : S128x1.Idx) :
    (iblk0 V c 5 t : S128x1.Idx → EReal) y = (V c main_arg6 : S128x1.Idx → EReal) y := by
  obtain ⟨-, -, -, -, -, -, -, -, -, -, h0, h1, -⟩ := idx_facts t
  unfold iblk0
  rw [View.read_apply]
  show (V c main_arg6 : S128x1.Idx → EReal) _ = _
  refine congrArg _ (funext fun a => Fin.ext ?_)
  match a with
  | ⟨0, _⟩ => show win0_5.index t (0 : Fin 2) * 128 + 1 * (y 0).val = (y 0).val; rw [h0]; omega
  | ⟨1, _⟩ => show win0_5.index t (1 : Fin 2) * 1 + 1 * (y 1).val = (y 1).val; rw [h1]; omega

/-- The second layer's bias is handed over whole. -/
theorem b2_read (c : Dev nD) (t : Fin cfg0.N) (y : S1x1.Idx) :
    (iblk0 V c 6 t : S1x1.Idx → EReal) y = (V c main_v21 : S1x1.Idx → EReal) y := by
  obtain ⟨-, -, -, -, -, -, -, -, -, -, -, -, h0, h1, -⟩ := idx_facts t
  unfold iblk0
  rw [View.read_apply]
  show (V c main_v21 : S1x1.Idx → EReal) _ = _
  refine congrArg _ (funext fun a => Fin.ext ?_)
  match a with
  | ⟨0, _⟩ => show win0_6.index t (0 : Fin 2) * 1 + 1 * (y 0).val = (y 0).val; rw [h0]; omega
  | ⟨1, _⟩ => show win0_6.index t (1 : Fin 2) * 1 + 1 * (y 1).val = (y 1).val; rw [h1]; omega

/-- WHAT POINT `t` WRITES BACK is block `t` of the tile score of the arrays as the call finds them: row `p` of the block is
    edge `5000 t + p`, whose score reads row `5000 t + p` of the two gathered arrays. -/
theorem flushed_eq (c : Dev nD) (t : Fin cfg0.N) : (dat0 V c).flushed 7 t = ((cfg0.win 7).blk t).view.read (Elt Ideal)
    (tileScore (V c main_v8) (V c main_v17) (V c main_v18) (V c main_v19) (V c main_v20) (V c main_arg6) (V c main_v21)) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  funext y
  have hy : ∃ (p : Fin 5000) (q : Fin 1), (y : S5000x1.Idx) = ix2 p q := ⟨y 0, y 1, eq_ix2 (n0 := 5000) (n1 := 1) y⟩
  obtain ⟨p, q, rfl⟩ := hy
  obtain rfl : q = 0 := Subsingleton.elim _ _
  have hN : t.val < 100 := t.isLt
  have hp : p.val < 5000 := p.isLt
  obtain ⟨-, -, -, -, -, -, -, -, -, -, -, -, -, -, h70, h71⟩ := idx_facts t
  have hemb : (((cfg0.win 7).blk t).view.emb (ix2 p (0 : Fin 1)) : S500000x1.Idx)
      = ix2 (⟨t.val * 5000 + p.val, by omega⟩ : Fin 500000) (0 : Fin 1) := funext fun a => Fin.ext (by
    match a with
    | ⟨0, _⟩ => show win0_7.index t (0 : Fin 2) * 5000 + 1 * p.val = t.val * 5000 + p.val; rw [h70]; omega
    | ⟨1, _⟩ => show win0_7.index t (1 : Fin 2) * 1 + 1 * 0 = 0; rw [h71])
  show k0_pay1 (F := Ideal) (iblk0 V c 0 t) (iblk0 V c 1 t) (iblk0 V c 2 t) (iblk0 V c 3 t) (iblk0 V c 4 t) (iblk0 V c 5 t) (iblk0 V c 6 t) (ix2 p (0 : Fin 1))
    = tileScore (V c main_v8) (V c main_v17) (V c main_v18) (V c main_v19) (V c main_v20) (V c main_arg6) (V c main_v21)
        (((cfg0.win 7).blk t).view.emb (ix2 p (0 : Fin 1)))
  rw [hemb]
  refine (Body.pay_apply (iblk0 V c 0 t) (iblk0 V c 1 t) (iblk0 V c 2 t) (iblk0 V c 3 t) (iblk0 V c 4 t) (iblk0 V c 5 t) (iblk0 V c 6 t) p).trans ?_
  unfold tileScore
  simp only [fun k => src_read V c t p k ⟨t.val * 5000 + p.val, by omega⟩ rfl, fun k => dst_read V c t p k ⟨t.val * 5000 + p.val, by omega⟩ rfl,
    w1lo_read V c t, w1hi_read V c t, b1_read V c t, w2_read V c t, b2_read V c t]

/-- Every edge's row lies in some point's block: edge `e` in point `e / 5000`'s. -/
theorem cover (i : S500000x1.Idx) : ∃ t : Fin cfg0.N, (cfg0.win 7).flush t = true ∧ i ∈ ((cfg0.win 7).blk t).view.set := by
  have h0 : (i 0).val < 500000 := (i 0).isLt
  have h1 : (i 1).val < 1 := (i 1).isLt
  obtain ⟨t, ht⟩ : ∃ t : Fin cfg0.N, t.val = (i 0).val / 5000 := ⟨⟨(i 0).val / 5000, by show _ < 100; omega⟩, rfl⟩
  refine ⟨t, flush0_7 t, ?_⟩
  obtain ⟨-, -, -, -, -, -, -, -, -, -, -, -, -, -, h70, h71⟩ := idx_facts t
  show i ∈ ((View.whole main_v22).slice (win0_7.rect t)).set
  rw [View.set_slice_whole, Rect.mem_set_unit]
  intro a
  match a with
  | ⟨0, _⟩ => show win0_7.index t (0 : Fin 2) * 5000 ≤ (i 0).val ∧ (i 0).val < win0_7.index t (0 : Fin 2) * 5000 + 5000; rw [h70, ht]; omega
  | ⟨1, _⟩ => show win0_7.index t (1 : Fin 2) * 1 ≤ (i 1).val ∧ (i 1).val < win0_7.index t (1 : Fin 2) * 1 + 1; rw [h71]; omega

/-- THE RESULT ARRAY after the call's 100 points: the tile score of the arrays as the call finds them. -/
theorem result_eq (c : Dev nD) : (dat0 V c).arrAt 7 cfg0.N
    = tileScore (V c main_v8) (V c main_v17) (V c main_v18) (V c main_v19) (V c main_v20) (V c main_arg6) (V c main_v21) :=
  (dat0 V c).arrAt_eq_of_cover 7 _ (fun t _ => flushed_eq V c t) cover

end Cert.KernelIdeal.Region0

end
-- ==== Proof.Region1.lean ====
/-
  The second pallas_call's result array, read off its generated proof data at ANY contents `V` of the buffers at the call's
  entry. The grid has 100 points; point `t` is handed rows `5000 t … 5000 t + 4999` of the two gathered arrays and the five
  small arrays whole, and writes rows `5000 t … 5000 t + 4999` of the result. A row's stored value depends on its own row of
  the gathered arrays only, so the 100 write-backs are the blocks of ONE function of the entry arrays
  (`EdgeDecoder.tileScore`), and they cover the result array.
-/
import proofs.«166116_j5488968204770_1_alg».proof.Proof.Gen.KernelIdeal.Frame
import proofs.«166116_j5488968204770_1_alg».proof.Proof.Spec
import proofs.«166116_j5488968204770_1_alg».proof.Proof.Payload
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)
open EdgeDecoder (tileScore)

variable (V : (c : Dev nD) → (b : Ref sig .tc) → Buf (Elt Ideal) ((c : Thread nD τ).loc b))

/-- Every access of the body starts at the origin of its buffer. -/
theorem hz : (![0, 0] : Fin 2 → Nat) = fun _ => 0 := funext fun a => by fin_cases a <;> rfl

/-- Where each window's block sits at grid point `t`: the two gathered arrays and the result move down 5000 rows per point;
    the weights and biases are whole arrays, the same block at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Point `t`'s block of the first gathered array is its rows `5000 t … 5000 t + 4999`. -/
theorem src_read (c : Dev nD) (t : Fin cfg1.N) (p : Fin 5000) (k : Fin 128) (e : Fin 500000) (he : e.val = t.val * 5000 + p.val) :
    (iblk1 V c 0 t : S5000x128.Idx → EReal) (ix2 p k) = (V c main_v31 : S500000x128.Idx → EReal) (ix2 e k) := by
  obtain ⟨h00, h01, -⟩ := idx_facts t
  unfold iblk1
  rw [View.read_apply]
  show (V c main_v31 : S500000x128.Idx → EReal) _ = _
  refine congrArg _ (funext fun a => Fin.ext ?_)
  match a with
  | ⟨0, _⟩ => show win1_0.index t (0 : Fin 2) * 5000 + 1 * p.val = e.val; rw [h00, he]; omega
  | ⟨1, _⟩ => show win1_0.index t (1 : Fin 2) * 128 + 1 * k.val = k.val; rw [h01]; omega

/-- Point `t`'s block of the second gathered array is its rows `5000 t … 5000 t + 4999`. -/
theorem dst_read (c : Dev nD) (t : Fin cfg1.N) (p : Fin 5000) (k : Fin 128) (e : Fin 500000) (he : e.val = t.val * 5000 + p.val) :
    (iblk1 V c 1 t : S5000x128.Idx → EReal) (ix2 p k) = (V c main_v40 : S500000x128.Idx → EReal) (ix2 e k) := by
  obtain ⟨-, -, h10, h11, -⟩ := idx_facts t
  unfold iblk1
  rw [View.read_apply]
  show (V c main_v40 : S500000x128.Idx → EReal) _ = _
  refine congrArg _ (funext fun a => Fin.ext ?_)
  match a with
  | ⟨0, _⟩ => show win1_1.index t (0 : Fin 2) * 5000 + 1 * p.val = e.val; rw [h10, he]; omega
  | ⟨1, _⟩ => show win1_1.index t (1 : Fin 2) * 128 + 1 * k.val = k.val; rw [h11]; omega

/-- The first half of the first layer's weights is handed over whole. -/
theorem w1lo_read (c : Dev nD) (t : Fin cfg1.N) (y : S128x128.Idx) :
    (iblk1 V c 2 t : S128x128.Idx → EReal) y = (V c main_v41 : S128x128.Idx → EReal) y := by
  obtain ⟨-, -, -, -, h0, h1, -⟩ := idx_facts t
  unfold iblk1
  rw [View.read_apply]
  show (V c main_v41 : S128x128.Idx → EReal) _ = _
  refine congrArg _ (funext fun a => Fin.ext ?_)
  match a with
  | ⟨0, _⟩ => show win1_2.index t (0 : Fin 2) * 128 + 1 * (y 0).val = (y 0).val; rw [h0]; omega
  | ⟨1, _⟩ => show win1_2.index t (1 : Fin 2) * 128 + 1 * (y 1).val = (y 1).val; rw [h1]; omega

/-- The second half of the first layer's weights is handed over whole. -/
theorem w1hi_read (c : Dev nD) (t : Fin cfg1.N) (y : S128x128.Idx) :
    (iblk1 V c 3 t : S128x128.Idx → EReal) y = (V c main_v42 : S128x128.Idx → EReal) y := by
  obtain ⟨-, -, -, -, -, -, h0, h1, -⟩ := idx_facts t
  unfold iblk1
  rw [View.read_apply]
  show (V c main_v42 : S128x128.Idx → EReal) _ = _
  refine congrArg _ (funext fun a => Fin.ext ?_)
  match a with
  | ⟨0, _⟩ => show win1_3.index t (0 : Fin 2) * 128 + 1 * (y 0).val = (y 0).val; rw [h0]; omega
  | ⟨1, _⟩ => show win1_3.index t (1 : Fin 2) * 128 + 1 * (y 1).val = (y 1).val; rw [h1]; omega

/-- The first layer's bias row is handed over whole. -/
theorem b1_read (c : Dev nD) (t : Fin cfg1.N) (y : S1x128.Idx) :
    (iblk1 V c 4 t : S1x128.Idx → EReal) y = (V c main_v43 : S1x128.Idx → EReal) y := by
  obtain ⟨-, -, -, -, -, -, -, -, h0, h1, -⟩ := idx_facts t
  unfold iblk1
  rw [View.read_apply]
  show (V c main_v43 : S1x128.Idx → EReal) _ = _
  refine congrArg _ (funext fun a => Fin.ext ?_)
  match a with
  | ⟨0, _⟩ => show win1_4.index t (0 : Fin 2) * 1 + 1 * (y 0).val = (y 0).val; rw [h0]; omega
  | ⟨1, _⟩ => show win1_4.index t (1 : Fin 2) * 128 + 1 * (y 1).val = (y 1).val; rw [h1]; omega

/-- The second layer's column is handed over whole. -/
theorem w2_read (c : Dev nD) (t : Fin cfg1.N) (y : S128x1.Idx) :
    (iblk1 V c 5 t : S128x1.Idx → EReal) y = (V c main_arg10 : S128x1.Idx → EReal) y := by
  obtain ⟨-, -, -, -, -, -, -, -, -, -, h0, h1, -⟩ := idx_facts t
  unfold iblk1
  rw [View.read_apply]
  show (V c main_arg10 : S128x1.Idx → EReal) _ = _
  refine congrArg _ (funext fun a => Fin.ext ?_)
  match a with
  | ⟨0, _⟩ => show win1_5.index t (0 : Fin 2) * 128 + 1 * (y 0).val = (y 0).val; rw [h0]; omega
  | ⟨1, _⟩ => show win1_5.index t (1 : Fin 2) * 1 + 1 * (y 1).val = (y 1).val; rw [h1]; omega

/-- The second layer's bias is handed over whole. -/
theorem b2_read (c : Dev nD) (t : Fin cfg1.N) (y : S1x1.Idx) :
    (iblk1 V c 6 t : S1x1.Idx → EReal) y = (V c main_v44 : S1x1.Idx → EReal) y := by
  obtain ⟨-, -, -, -, -, -, -, -, -, -, -, -, h0, h1, -⟩ := idx_facts t
  unfold iblk1
  rw [View.read_apply]
  show (V c main_v44 : S1x1.Idx → EReal) _ = _
  refine congrArg _ (funext fun a => Fin.ext ?_)
  match a with
  | ⟨0, _⟩ => show win1_6.index t (0 : Fin 2) * 1 + 1 * (y 0).val = (y 0).val; rw [h0]; omega
  | ⟨1, _⟩ => show win1_6.index t (1 : Fin 2) * 1 + 1 * (y 1).val = (y 1).val; rw [h1]; omega

/-- WHAT POINT `t` WRITES BACK is block `t` of the tile score of the arrays as the call finds them: row `p` of the block is
    edge `5000 t + p`, whose score reads row `5000 t + p` of the two gathered arrays. -/
theorem flushed_eq (c : Dev nD) (t : Fin cfg1.N) : (dat1 V c).flushed 7 t = ((cfg1.win 7).blk t).view.read (Elt Ideal)
    (tileScore (V c main_v31) (V c main_v40) (V c main_v41) (V c main_v42) (V c main_v43) (V c main_arg10) (V c main_v44)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  funext y
  have hy : ∃ (p : Fin 5000) (q : Fin 1), (y : S5000x1.Idx) = ix2 p q := ⟨y 0, y 1, eq_ix2 (n0 := 5000) (n1 := 1) y⟩
  obtain ⟨p, q, rfl⟩ := hy
  obtain rfl : q = 0 := Subsingleton.elim _ _
  have hN : t.val < 100 := t.isLt
  have hp : p.val < 5000 := p.isLt
  obtain ⟨-, -, -, -, -, -, -, -, -, -, -, -, -, -, h70, h71⟩ := idx_facts t
  have hemb : (((cfg1.win 7).blk t).view.emb (ix2 p (0 : Fin 1)) : S500000x1.Idx)
      = ix2 (⟨t.val * 5000 + p.val, by omega⟩ : Fin 500000) (0 : Fin 1) := funext fun a => Fin.ext (by
    match a with
    | ⟨0, _⟩ => show win1_7.index t (0 : Fin 2) * 5000 + 1 * p.val = t.val * 5000 + p.val; rw [h70]; omega
    | ⟨1, _⟩ => show win1_7.index t (1 : Fin 2) * 1 + 1 * 0 = 0; rw [h71])
  show k1_pay1 (F := Ideal) (iblk1 V c 0 t) (iblk1 V c 1 t) (iblk1 V c 2 t) (iblk1 V c 3 t) (iblk1 V c 4 t) (iblk1 V c 5 t) (iblk1 V c 6 t) (ix2 p (0 : Fin 1))
    = tileScore (V c main_v31) (V c main_v40) (V c main_v41) (V c main_v42) (V c main_v43) (V c main_arg10) (V c main_v44)
        (((cfg1.win 7).blk t).view.emb (ix2 p (0 : Fin 1)))
  rw [hemb]
  refine (Body.pay1_apply (iblk1 V c 0 t) (iblk1 V c 1 t) (iblk1 V c 2 t) (iblk1 V c 3 t) (iblk1 V c 4 t) (iblk1 V c 5 t) (iblk1 V c 6 t) p).trans ?_
  unfold tileScore
  simp only [fun k => src_read V c t p k ⟨t.val * 5000 + p.val, by omega⟩ rfl, fun k => dst_read V c t p k ⟨t.val * 5000 + p.val, by omega⟩ rfl,
    w1lo_read V c t, w1hi_read V c t, b1_read V c t, w2_read V c t, b2_read V c t]

/-- Every edge's row lies in some point's block: edge `e` in point `e / 5000`'s. -/
theorem cover (i : S500000x1.Idx) : ∃ t : Fin cfg1.N, (cfg1.win 7).flush t = true ∧ i ∈ ((cfg1.win 7).blk t).view.set := by
  have h0 : (i 0).val < 500000 := (i 0).isLt
  have h1 : (i 1).val < 1 := (i 1).isLt
  obtain ⟨t, ht⟩ : ∃ t : Fin cfg1.N, t.val = (i 0).val / 5000 := ⟨⟨(i 0).val / 5000, by show _ < 100; omega⟩, rfl⟩
  refine ⟨t, flush1_7 t, ?_⟩
  obtain ⟨-, -, -, -, -, -, -, -, -, -, -, -, -, -, h70, h71⟩ := idx_facts t
  show i ∈ ((View.whole main_v45).slice (win1_7.rect t)).set
  rw [View.set_slice_whole, Rect.mem_set_unit]
  intro a
  match a with
  | ⟨0, _⟩ => show win1_7.index t (0 : Fin 2) * 5000 ≤ (i 0).val ∧ (i 0).val < win1_7.index t (0 : Fin 2) * 5000 + 5000; rw [h70, ht]; omega
  | ⟨1, _⟩ => show win1_7.index t (1 : Fin 2) * 1 ≤ (i 1).val ∧ (i 1).val < win1_7.index t (1 : Fin 2) * 1 + 1; rw [h71]; omega

/-- THE RESULT ARRAY after the call's 100 points: the tile score of the arrays as the call finds them. -/
theorem result_eq (c : Dev nD) : (dat1 V c).arrAt 7 cfg1.N
    = tileScore (V c main_v31) (V c main_v40) (V c main_v41) (V c main_v42) (V c main_v43) (V c main_arg10) (V c main_v44) :=
  (dat1 V c).arrAt_eq_of_cover 7 _ (fun t _ => flushed_eq V c t) cover

end Cert.KernelIdeal.Region1

end
-- ==== Proof.HostSide.lean ====
/-
  The kernel program's result after the run, as a function of its twelve arguments.

  @main is three stretches of host operations around two pallas_calls. The last stretch stacks the two calls' result arrays
  (`result_fold`). Each call's result array is the tile score of the arrays the call finds at its entry (Region0, Region1);
  those are written by the stretch before the call from the arguments, which nothing writes: the gathered rows of the node
  arrays — the very operations the reference applies, so stated in its vocabulary —, the two 128-row halves of `w1`, and
  the biases reshaped to one row. With the halves and rows read back at an index the tile score is `EdgeDecoder.score`,
  and the stacked result is the function `decoded` the reference's result is.
-/
import proofs.«166116_j5488968204770_1_alg».proof.Proof.Gen.KernelIdeal.Frame
import proofs.«166116_j5488968204770_1_alg».proof.Proof.Spec
import proofs.«166116_j5488968204770_1_alg».proof.Proof.Region0
import proofs.«166116_j5488968204770_1_alg».proof.Proof.Region1
import proofs.«166116_j5488968204770_1_alg».proof.Proof.RefScore
import Idealize.ShloMosaic.Lib.StableHlo.Run
import Idealize.ShloMosaic.Lib.ValueLayout

set_option maxRecDepth 16384

noncomputable section

namespace Cert.KernelIdeal.HostSide

open Cert.KernelIdeal Cert.KernelIdeal.Gen Idealize.ShloMosaic Idealize.ShloMosaic.TcCoe Idealize.SL.Sem Idealize.ShloMosaic.ValueIdx
open Idealize.ShloMosaic.StableHlo
open EdgeDecoder

variable (m : (ℓ : Loc nD τ sig) → Buf (Elt Ideal) ℓ) (ρ : Dev nD → PrngReg)

/-! ## The last stretch: the two calls' results stacked -/

theorem result_fold (c : Dev nD) : W5 m ρ c (Proc.devRef .tc main_v48)
    = concatenate S2x500000x1 0
        [⟨S1x500000x1, broadcastInDim S1x500000x1 ![1, 2] bcast_S500000x1_S1x500000x1_1_2 (W4 m ρ c (Proc.devRef .tc main_v22))⟩,
         ⟨S1x500000x1, broadcastInDim S1x500000x1 ![1, 2] bcast_S500000x1_S1x500000x1_1_2 (W4 m ρ c (Proc.devRef .tc main_v45))⟩]
        concatenates_S1x500000x1_S1x500000x1_S2x500000x1_d0 := by
  show StableHlo.after hostOps2 (W4 m ρ c) (Proc.devRef .tc main_v48) = _
  dsimp only [hostOps2]
  after_results <;> rfl

/-- The first call's result array is still what the call left when the second call has run: the middle stretch and the
    second call write other buffers. -/
theorem first_at_exit (c : Dev nD) : W4 m ρ c (Proc.devRef .tc main_v22) = (dat0 (V1 m ρ) c).arrAt 7 cfg0.N :=
  calc W4 m ρ c (Proc.devRef .tc main_v22)
    _ = W3 m ρ c (Proc.devRef .tc main_v22) := W4_of_ne m ρ c main_v22 (by decide)
    _ = W2 m ρ c (Proc.devRef .tc main_v22) := StableHlo.after_of_forall_not_mem (b := Proc.devRef .tc main_v22) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 7 cfg0.N := W2_arr m ρ c 7

theorem second_at_exit (c : Dev nD) : W4 m ρ c (Proc.devRef .tc main_v45) = (dat1 (V3 m ρ) c).arrAt 7 cfg1.N := W4_arr m ρ c 7

/-! ## The arguments at the second call's entry: as launched -/

/-- A buffer that neither the first stretch nor the first call writes holds its launch contents when the first call has run. -/
theorem kept_of (c : Dev nD) (b : Ref sig .tc) (h0 : ∀ w, Pipeline.arrRef spec0 w ≠ b)
    (h1 : StableHlo.after hostOps0 (W0 m ρ c) (Proc.devRef .tc b) = W0 m ρ c (Proc.devRef .tc b)) :
    W2 m ρ c (Proc.devRef .tc b) = m ((c : Thread nD τ).loc b) :=
  (W2_of_ne m ρ c b h0).trans (h1.trans rfl)

theorem kept_arg0 (c : Dev nD) : W2 m ρ c (Proc.devRef .tc main_arg0) = m ((c : Thread nD τ).loc main_arg0) :=
  kept_of m ρ c main_arg0 (by decide) (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem kept_arg3 (c : Dev nD) : W2 m ρ c (Proc.devRef .tc main_arg3) = m ((c : Thread nD τ).loc main_arg3) :=
  kept_of m ρ c main_arg3 (by decide) (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem kept_arg8 (c : Dev nD) : W2 m ρ c (Proc.devRef .tc main_arg8) = m ((c : Thread nD τ).loc main_arg8) :=
  kept_of m ρ c main_arg8 (by decide) (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem kept_arg9 (c : Dev nD) : W2 m ρ c (Proc.devRef .tc main_arg9) = m ((c : Thread nD τ).loc main_arg9) :=
  kept_of m ρ c main_arg9 (by decide) (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem kept_arg10 (c : Dev nD) : W2 m ρ c (Proc.devRef .tc main_arg10) = m ((c : Thread nD τ).loc main_arg10) :=
  kept_of m ρ c main_arg10 (by decide) (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem kept_arg11 (c : Dev nD) : W2 m ρ c (Proc.devRef .tc main_arg11) = m ((c : Thread nD τ).loc main_arg11) :=
  kept_of m ρ c main_arg11 (by decide) (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## What the first call finds at its entry -/

theorem src0 (c : Dev nD) : V1 m ρ c main_v8 = Cert.ReferenceIdeal.Read.val_main_v8 (F := Ideal) (m ((c : Thread nD τ).loc main_arg0)) (m ((c : Thread nD τ).loc main_arg2)) := by
  show StableHlo.after hostOps0 (W0 m ρ c) (Proc.devRef .tc main_v8) = _
  dsimp only [hostOps0]
  after_results <;> rfl
theorem dst0 (c : Dev nD) : V1 m ρ c main_v17 = Cert.ReferenceIdeal.Read.val_main_v17 (F := Ideal) (m ((c : Thread nD τ).loc main_arg1)) (m ((c : Thread nD τ).loc main_arg2)) := by
  show StableHlo.after hostOps0 (W0 m ρ c) (Proc.devRef .tc main_v17) = _
  dsimp only [hostOps0]
  after_results <;> rfl
theorem w1lo0 (c : Dev nD) : V1 m ρ c main_v18 = extractStridedSlice S128x128 ![0, 0] (m ((c : Thread nD τ).loc main_arg4)) slices_S256x128_S128x128_0_0 := by
  show StableHlo.after hostOps0 (W0 m ρ c) (Proc.devRef .tc main_v18) = _
  dsimp only [hostOps0]
  after_results <;> rfl
theorem w1hi0 (c : Dev nD) : V1 m ρ c main_v19 = extractStridedSlice S128x128 ![128, 0] (m ((c : Thread nD τ).loc main_arg4)) slices_S256x128_S128x128_128_0 := by
  show StableHlo.after hostOps0 (W0 m ρ c) (Proc.devRef .tc main_v19) = _
  dsimp only [hostOps0]
  after_results <;> rfl
theorem b1row0 (c : Dev nD) : V1 m ρ c main_v20 = shapeCast S1x128 (m ((c : Thread nD τ).loc main_arg5)) shapeCasts_S128_S1x128 := by
  show StableHlo.after hostOps0 (W0 m ρ c) (Proc.devRef .tc main_v20) = _
  dsimp only [hostOps0]
  after_results <;> rfl
theorem w2_0 (c : Dev nD) : V1 m ρ c main_arg6 = (m ((c : Thread nD τ).loc main_arg6)) := by
  show StableHlo.after hostOps0 (W0 m ρ c) (Proc.devRef .tc main_arg6) = _
  dsimp only [hostOps0]
  after_results <;> rfl
theorem b2row0 (c : Dev nD) : V1 m ρ c main_v21 = shapeCast S1x1 (m ((c : Thread nD τ).loc main_arg7)) shapeCasts_S1_S1x1 := by
  show StableHlo.after hostOps0 (W0 m ρ c) (Proc.devRef .tc main_v21) = _
  dsimp only [hostOps0]
  after_results <;> rfl

/-! ## What the second call finds at its entry -/

theorem src1 (c : Dev nD) : V3 m ρ c main_v31 = Cert.ReferenceIdeal.Read.val_main_v37 (F := Ideal) (m ((c : Thread nD τ).loc main_arg0)) (m ((c : Thread nD τ).loc main_arg3)) := by
  show StableHlo.after hostOps1 (W2 m ρ c) (Proc.devRef .tc main_v31) = _
  dsimp only [hostOps1]
  after_results
  rw [kept_arg0, kept_arg3]
  rfl
theorem dst1 (c : Dev nD) : V3 m ρ c main_v40 = Cert.ReferenceIdeal.Read.val_main_v46 (F := Ideal) (m ((c : Thread nD τ).loc main_arg0)) (m ((c : Thread nD τ).loc main_arg3)) := by
  show StableHlo.after hostOps1 (W2 m ρ c) (Proc.devRef .tc main_v40) = _
  dsimp only [hostOps1]
  after_results
  rw [kept_arg0, kept_arg3]
  rfl
theorem w1lo1 (c : Dev nD) : V3 m ρ c main_v41 = extractStridedSlice S128x128 ![0, 0] (m ((c : Thread nD τ).loc main_arg8)) slices_S256x128_S128x128_0_0 := by
  show StableHlo.after hostOps1 (W2 m ρ c) (Proc.devRef .tc main_v41) = _
  dsimp only [hostOps1]
  after_results
  rw [kept_arg8]
theorem w1hi1 (c : Dev nD) : V3 m ρ c main_v42 = extractStridedSlice S128x128 ![128, 0] (m ((c : Thread nD τ).loc main_arg8)) slices_S256x128_S128x128_128_0 := by
  show StableHlo.after hostOps1 (W2 m ρ c) (Proc.devRef .tc main_v42) = _
  dsimp only [hostOps1]
  after_results
  rw [kept_arg8]
theorem b1row1 (c : Dev nD) : V3 m ρ c main_v43 = shapeCast S1x128 (m ((c : Thread nD τ).loc main_arg9)) shapeCasts_S128_S1x128 := by
  show StableHlo.after hostOps1 (W2 m ρ c) (Proc.devRef .tc main_v43) = _
  dsimp only [hostOps1]
  after_results
  rw [kept_arg9]
  rfl
theorem w2_1 (c : Dev nD) : V3 m ρ c main_arg10 = (m ((c : Thread nD τ).loc main_arg10)) := by
  show StableHlo.after hostOps1 (W2 m ρ c) (Proc.devRef .tc main_arg10) = _
  dsimp only [hostOps1]
  after_results
  exact kept_arg10 m ρ c
theorem b2row1 (c : Dev nD) : V3 m ρ c main_v44 = shapeCast S1x1 (m ((c : Thread nD τ).loc main_arg11)) shapeCasts_S1_S1x1 := by
  show StableHlo.after hostOps1 (W2 m ρ c) (Proc.devRef .tc main_v44) = _
  dsimp only [hostOps1]
  after_results
  rw [kept_arg11]
  rfl

/-! ## Each call's result array is its relation's score -/

theorem first_score (c : Dev nD) : (dat0 (V1 m ρ) c).arrAt 7 cfg0.N
    = score (Cert.ReferenceIdeal.Read.val_main_v8 (F := Ideal) (m ((c : Thread nD τ).loc main_arg0)) (m ((c : Thread nD τ).loc main_arg2))) (Cert.ReferenceIdeal.Read.val_main_v17 (F := Ideal) (m ((c : Thread nD τ).loc main_arg1)) (m ((c : Thread nD τ).loc main_arg2)))
        (m ((c : Thread nD τ).loc main_arg4)) (m ((c : Thread nD τ).loc main_arg5)) (m ((c : Thread nD τ).loc main_arg6)) (m ((c : Thread nD τ).loc main_arg7)) := by
  rw [Region0.result_eq, src0, dst0, w2_0]
  refine tileScore_eq_score _ _ _ _ _ _ _ _ _ _ (fun k j => ?_) (fun k j => ?_) (fun j => ?_) ?_
  · rw [w1lo0]; exact slice2_axis0_apply 0 _ _ k j (lo k) (Nat.zero_add _).symm
  · rw [w1hi0]; exact slice2_axis0_apply 128 _ _ k j (hi k) rfl
  · rw [b1row0]; exact shapeCast_a_1a_apply _ _ (0 : Fin 1) j
  · rw [b2row0]; exact shapeCast_a_1a_apply _ _ (0 : Fin 1) (0 : Fin 1)

theorem second_score (c : Dev nD) : (dat1 (V3 m ρ) c).arrAt 7 cfg1.N
    = score (Cert.ReferenceIdeal.Read.val_main_v37 (F := Ideal) (m ((c : Thread nD τ).loc main_arg0)) (m ((c : Thread nD τ).loc main_arg3))) (Cert.ReferenceIdeal.Read.val_main_v46 (F := Ideal) (m ((c : Thread nD τ).loc main_arg0)) (m ((c : Thread nD τ).loc main_arg3)))
        (m ((c : Thread nD τ).loc main_arg8)) (m ((c : Thread nD τ).loc main_arg9)) (m ((c : Thread nD τ).loc main_arg10)) (m ((c : Thread nD τ).loc main_arg11)) := by
  rw [Region1.result_eq, src1, dst1, w2_1]
  refine tileScore_eq_score _ _ _ _ _ _ _ _ _ _ (fun k j => ?_) (fun k j => ?_) (fun j => ?_) ?_
  · rw [w1lo1]; exact slice2_axis0_apply 0 _ _ k j (lo k) (Nat.zero_add _).symm
  · rw [w1hi1]; exact slice2_axis0_apply 128 _ _ k j (hi k) rfl
  · rw [b1row1]; exact shapeCast_a_1a_apply _ _ (0 : Fin 1) j
  · rw [b2row1]; exact shapeCast_a_1a_apply _ _ (0 : Fin 1) (0 : Fin 1)

/-! ## The result -/

/-- THE RESULT BUFFER at the last boundary: the function `decoded` of the twelve arguments as launched. -/
theorem kernel_value (c : Dev nD) : W5 m ρ c (Proc.devRef .tc main_v48)
    = Cert.ReferenceIdeal.RefScore.decoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [result_fold, first_at_exit, second_at_exit, first_score, second_score]
  rfl

end Cert.KernelIdeal.HostSide

end
-- ==== Proof.lean ====
/-
  The certificate of the edge decoder: a Pallas kernel that scores 500000 gene–disease edges and 500000 gene–gene edges
  with a two-layer perceptron over the gathered embeddings of each edge's two end nodes, against the plain jnp decoder.

  Both programs gather the end nodes' rows with the same host operations. The reference joins the two rows into one of
  width 256 and multiplies by `w1`; the kernel never joins them: it multiplies the first row by the first 128 rows of `w1`
  and the second by the last 128 and adds. On the extended reals a sum over 256 positions is the sum over the first 128
  plus the sum over the last 128 (addition there is commutative and associative, infinities included), so the two hidden
  layers agree entry by entry, and the rectifier, the second layer and its bias are the same expression on both sides.
  The kernel computes 5000 edges per grid point; an edge's score reads its own row only, so the 100 write-backs of each
  call are the blocks of one function of the call's entry arrays and tile its result array. No finiteness is used: the
  precondition is never opened.

  Frames: the kernel's two, generated; the reference's is its generated run with the result dropped. The idealization
  rewrote nothing, so `preserves` is trivial.
-/
import proofs.«166116_j5488968204770_1_alg».proof.Defs
import proofs.«166116_j5488968204770_1_alg».proof.Proof.Gen.Kernel
import proofs.«166116_j5488968204770_1_alg».proof.Proof.Gen.Kernel.Skeleton
import proofs.«166116_j5488968204770_1_alg».proof.Proof.Gen.Kernel.Launch
import proofs.«166116_j5488968204770_1_alg».proof.Proof.Gen.Kernel.Points
import proofs.«166116_j5488968204770_1_alg».proof.Proof.Gen.Kernel.Frame
import proofs.«166116_j5488968204770_1_alg».proof.Proof.Gen.KernelIdeal
import proofs.«166116_j5488968204770_1_alg».proof.Proof.Gen.KernelIdeal.Skeleton
import proofs.«166116_j5488968204770_1_alg».proof.Proof.Gen.KernelIdeal.Launch
import proofs.«166116_j5488968204770_1_alg».proof.Proof.Gen.KernelIdeal.Points
import proofs.«166116_j5488968204770_1_alg».proof.Proof.Gen.KernelIdeal.Frame
import proofs.«166116_j5488968204770_1_alg».proof.Proof.Gen.ReferenceIdeal
import proofs.«166116_j5488968204770_1_alg».proof.Proof.Gen.ReferenceIdeal.Run
import proofs.«166116_j5488968204770_1_alg».proof.Proof.Gen.ReferenceIdeal.Read
import proofs.«166116_j5488968204770_1_alg».proof.Proof.Gen.Pre_finite_inputs
import proofs.«166116_j5488968204770_1_alg».proof.Proof.Launch
import proofs.«166116_j5488968204770_1_alg».proof.Proof.RefScore
import proofs.«166116_j5488968204770_1_alg».proof.Proof.HostSide
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel's run with its result named: the result array ends at `decoded` of the arguments as launched, the
    arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v48)
        = Cert.ReferenceIdeal.RefScore.decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
            (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
            (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run (Cert.KernelIdeal.defs (F := Ideal)) _ _).mono (fun r h c =>
    ⟨(h c _ (Cert.KernelIdeal.Gen.mem_uc Cert.KernelIdeal.main_v48 (by decide))).trans (Cert.KernelIdeal.HostSide.kernel_value m ρ c),
      (h c _ (Cert.KernelIdeal.Gen.mem_uc Cert.KernelIdeal.main_arg0 (by decide))).trans (Cert.KernelIdeal.Gen.W5_main_arg0 m ρ c),
      (h c _ (Cert.KernelIdeal.Gen.mem_uc Cert.KernelIdeal.main_arg1 (by decide))).trans (Cert.KernelIdeal.Gen.W5_main_arg1 m ρ c),
      (h c _ (Cert.KernelIdeal.Gen.mem_uc Cert.KernelIdeal.main_arg2 (by decide))).trans (Cert.KernelIdeal.Gen.W5_main_arg2 m ρ c),
      (h c _ (Cert.KernelIdeal.Gen.mem_uc Cert.KernelIdeal.main_arg3 (by decide))).trans (Cert.KernelIdeal.Gen.W5_main_arg3 m ρ c),
      (h c _ (Cert.KernelIdeal.Gen.mem_uc Cert.KernelIdeal.main_arg4 (by decide))).trans (Cert.KernelIdeal.Gen.W5_main_arg4 m ρ c),
      (h c _ (Cert.KernelIdeal.Gen.mem_uc Cert.KernelIdeal.main_arg5 (by decide))).trans (Cert.KernelIdeal.Gen.W5_main_arg5 m ρ c),
      (h c _ (Cert.KernelIdeal.Gen.mem_uc Cert.KernelIdeal.main_arg6 (by decide))).trans (Cert.KernelIdeal.Gen.W5_main_arg6 m ρ c),
      (h c _ (Cert.KernelIdeal.Gen.mem_uc Cert.KernelIdeal.main_arg7 (by decide))).trans (Cert.KernelIdeal.Gen.W5_main_arg7 m ρ c),
      (h c _ (Cert.KernelIdeal.Gen.mem_uc Cert.KernelIdeal.main_arg8 (by decide))).trans (Cert.KernelIdeal.Gen.W5_main_arg8 m ρ c),
      (h c _ (Cert.KernelIdeal.Gen.mem_uc Cert.KernelIdeal.main_arg9 (by decide))).trans (Cert.KernelIdeal.Gen.W5_main_arg9 m ρ c),
      (h c _ (Cert.KernelIdeal.Gen.mem_uc Cert.KernelIdeal.main_arg10 (by decide))).trans (Cert.KernelIdeal.Gen.W5_main_arg10 m ρ c),
      (h c _ (Cert.KernelIdeal.Gen.mem_uc Cert.KernelIdeal.main_arg11 (by decide))).trans (Cert.KernelIdeal.Gen.W5_main_arg11 m ρ c)⟩)
    (Cert.KernelIdeal.Launch.run_W5 m ρ)

/-- From memories agreeing on the arguments both programs end with the same result: `decoded` of the arguments. -/
theorem algebraic : Cert.algebraic_KernelIdeal_ReferenceIdeal := by
  intro m ρ m' ρ' _ hagree
  refine ⟨fun c => Cert.ReferenceIdeal.RefScore.decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), kernel_run m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4, h5, h6, h7, h8, h9, h10, h11⟩ := hagree c
  rw [Cert.ReferenceIdeal.Read.val_main_v60_eq, Cert.ReferenceIdeal.RefScore.ref_decoded, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
